-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S2048x1024 : Shape := ⟨2, ![2048, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S2x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2x1x1024_S1x1x1024_1_0_0 : ∀ a, (![1, 0, 0] : Fin 3 → Nat) a + S1x1x1024.size a ≤ S2x1x1024.size a
  squeezes_S1x1x1024_S1x1024 : S1x1x1024.Squeezes S1x1024
  inb_S1x1024_S1x1024_0_0 : ∀ a, (![0, 0] : Fin 2 → Nat) a + S1x1024.size a ≤ S1x1024.size a
  h_S1x1024 : 0 < S1x1024.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S2048, .f32⟩
  | .hbm, ⟨3, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S4096x2048_S2048_d0 : S4096x2048.ReducesTo [0] S2048
  h_S_ : 0 < S_.numel
  bcast_S2048_S1x2048_1 : S2048.BroadcastsInDim S1x2048 (![1] : Fin 1 → Fin S1x2048.rank)

variable [Facts₀]

class Facts : Prop extends Facts₀ where

variable [Facts]
-- ==== Proof.Peer.lean ====
/-
  The mesh is 2 × 2, devices numbered row-major: device `c` sits at (c / 2, c % 2). Each device's partner
  in the exchange is the device with the other first coordinate and the same second coordinate, which in the
  row-major numbering is `c + 2` modulo 4. The map is an involution without fixed points.
-/
import Idealize.ShloMosaic.Shape

namespace Cert.Mesh

/-- The device with the other first mesh coordinate and the same second one. -/
def peer (c : Fin 4) : Fin 4 := ⟨(c.val + 2) % 4, Nat.mod_lt _ (by decide)⟩

theorem peer_peer (c : Fin 4) : peer (peer c) = c := by revert c; decide
theorem peer_ne (c : Fin 4) : peer c ≠ c := by revert c; decide
theorem peer_val (c : Fin 4) : (peer c).val = (c.val + 2) % 4 := rfl

/-- The partner shares the second mesh coordinate and has the other first one. -/
theorem peer_coords (c : Fin 4) : (peer c).val % 2 = c.val % 2 ∧ (peer c).val / 2 = 1 - c.val / 2 := by revert c; decide

/-- The partner map as a permutation of the devices. -/
def peerEquiv : Fin 4 ≃ Fin 4 := ⟨peer, peer, peer_peer, peer_peer⟩

end Cert.Mesh
-- ==== Proof.Kernel.Proto.lean ====
/-
  The exchange on the 2 × 2 mesh, part one: names. Every device owns one scratch buffer of two rows. Row 0 is
  where it writes the column sums of its own block; row 1 is where its partner's column sums land. The two
  rows are disjoint element sets of the one buffer and together they are all of it, so the buffer can be held
  as two separate parts, one of which is lent to the partner for the duration of the copy.
-/
import proofs.«901096_g7700000000001097_dist_sum_ax0_xy_m2048_n1024_v7x_xy2x2_bf16_1_alg».proof.Defs
import proofs.«901096_g7700000000001097_dist_sum_ax0_xy_m2048_n1024_v7x_xy2x2_bf16_1_alg».proof.Proof.Gen.Kernel
import proofs.«901096_g7700000000001097_dist_sum_ax0_xy_m2048_n1024_v7x_xy2x2_bf16_1_alg».proof.Proof.Gen.Kernel.Skeleton
import proofs.«901096_g7700000000001097_dist_sum_ax0_xy_m2048_n1024_v7x_xy2x2_bf16_1_alg».proof.Proof.Gen.Kernel.Launch
import proofs.«901096_g7700000000001097_dist_sum_ax0_xy_m2048_n1024_v7x_xy2x2_bf16_1_alg».proof.Proof.Peer
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside one for the exchange's three cells per device -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- Device `c`'s partner: the other first mesh coordinate, the same second one. -/
abbrev pr (c : Dev nD) : Dev nD := Cert.Mesh.peer c

theorem pr_pr (c : Dev nD) : pr (pr c) = c := Cert.Mesh.peer_peer c

/-- Both device chains of the body name the partner. -/
theorem dev1_eq (c : Dev nD) : (⟨k0_dev1 c, k0_dev1_lt c⟩ : Dev nD) = pr c :=
  Fin.ext ((k0_dev1_eq c).trans (by revert c; decide))
theorem dev2_eq (c : Dev nD) : (⟨k0_dev2 c, k0_dev2_lt c⟩ : Dev nD) = pr c :=
  Fin.ext ((k0_dev2_eq c).trans (by revert c; decide))

/-! ## The memrefs, the two rows of the scratch buffer, the cells -/

abbrev xM : Memref sig .tc .vmem S2048x1024 .f32 := Memref.whole cc0_stg0_0
abbrev oM : Memref sig .tc .vmem S1x1024 .f32 := Memref.whole cc0_stg1_0
abbrev sM : Memref sig .tc .vmem S2x1x1024 .f32 := Memref.whole cc0_scratch0

abbrev rX : Rect S2048x1024 := Rect.unit (s := S2048x1024) ![0, 0] S2048x1024.size inb_S2048x1024_S2048x1024_0_0
abbrev rO : Rect S1x1024 := Rect.unit (s := S1x1024) ![0, 0] S1x1024.size inb_S1x1024_S1x1024_0_0
abbrev r0 : Rect S2x1x1024 := Rect.unit (s := S2x1x1024) ![0, 0, 0] S1x1x1024.size inb_S2x1x1024_S1x1x1024_0_0_0
abbrev r1 : Rect S2x1x1024 := Rect.unit (s := S2x1x1024) ![1, 0, 0] S1x1x1024.size inb_S2x1x1024_S1x1x1024_1_0_0

/-- Row 0 and row 1 of the scratch buffer as the copy names them: a slice with its unit axis squeezed away. -/
abbrev row0 : Memref sig .tc .vmem S1x1024 .f32 := (sM.slice r0 (fun _ => rfl)).squeeze S1x1024 squeezes_S1x1x1024_S1x1024
abbrev row1 : Memref sig .tc .vmem S1x1024 .f32 := (sM.slice r1 (fun _ => rfl)).squeeze S1x1024 squeezes_S1x1x1024_S1x1024

/-- The barrier semaphore (the runtime's, not scoped), the send and the receive semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- What one copy of a row credits its semaphores. -/
abbrev N : ℕ := (row1 : Memref sig .tc .vmem S1x1024 .f32).view.dmaCredit
theorem N_pos : 0 < N := View.dmaCredit_pos _ (by decide)

/-! ## The rows as element sets -/

theorem row0_set : (row0 : Memref sig .tc .vmem S1x1024 .f32).view.set = r0.set := by
  simp only [Memref.view_squeeze, Memref.view_slice, Memref.view_whole, View.set_reshape, View.set_slice_whole]
theorem row1_set : (row1 : Memref sig .tc .vmem S1x1024 .f32).view.set = r1.set := by
  simp only [Memref.view_squeeze, Memref.view_slice, Memref.view_whole, View.set_reshape, View.set_slice_whole]

theorem rows_disjoint : Disjoint (row0 : Memref sig .tc .vmem S1x1024 .f32).view.set (row1 : Memref sig .tc .vmem S1x1024 .f32).view.set := by
  rw [row0_set, row1_set]
  exact Rect.unit_disjoint (0 : Fin 3) (Or.inl (by decide))

theorem rows_union : (row0 : Memref sig .tc .vmem S1x1024 .f32).view.set ∪ (row1 : Memref sig .tc .vmem S1x1024 .f32).view.set = Finset.univ := by
  rw [row0_set, row1_set]
  ext i
  simp only [Finset.mem_union, Finset.mem_univ, iff_true, Rect.mem_set_unit]
  have h0 : (i 0).val < 2 := (i 0).isLt
  have h1 : (i 1).val < 1 := (i 1).isLt
  have h2 : (i 2).val < 1024 := (i 2).isLt
  by_cases hi : (i 0).val = 0
  · left; intro a; fin_cases a
    · exact ⟨by simp, by simp [hi]⟩
    · exact ⟨by simp, by simpa using h1⟩
    · exact ⟨by simp, by simpa using h2⟩
  · right; intro a; fin_cases a
    · exact ⟨by simp; omega, by simp; omega⟩
    · exact ⟨by simp, by simpa using h1⟩
    · exact ⟨by simp, by simpa using h2⟩

/-! ## Contents

What the rows hold. A device's block of the input, as its staging buffer holds it; the column sums of that
block, as one row; the scratch buffer with row 0 overwritten by those sums; and the scratch buffer with row 1
overwritten by what the partner's row 0 holds. Off the row in question these functions are whatever the
buffer held at launch: a part of a buffer is held at its own elements only. -/

def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block, as the body stores them. -/
def sums (c : Dev nD) : FVec F S1x1x1024 .f32 := k0_pay2 (xstg m ρ c)

abbrev SB (c : Dev nD) : Type := Buf (Elt F) ((sM : Memref sig .tc .vmem S2x1x1024 .f32).view.loc (c : Thread nD τ))

/-- Row 0 of device `c`'s scratch buffer holding its own column sums. -/
def own (c : Dev nD) : SB (F := F) c :=
  ((sM : Memref sig .tc .vmem S2x1x1024 .f32).access r0 : View sig .tc _ _ _).write (Elt F) (m ((c : Thread nD τ).loc cc0_scratch0)) (sums m ρ c) Finset.univ

/-- Row 1 of device `c`'s scratch buffer holding what the partner's row 0 holds. -/
def land (c : Dev nD) : SB (F := F) c :=
  (row1 : Memref sig .tc .vmem S1x1024 .f32).view.write (Elt F) (m ((c : Thread nD τ).loc cc0_scratch0))
    ((row0 : Memref sig .tc .vmem S1x1024 .f32).view.read (Elt F) (own m ρ (pr c))) Finset.univ

/-- The result: the sum of the two rows. -/
def outAt (c : Dev nD) : (cc0_stg1_0 : Ref sig .tc).ty.Contents (Elt F) :=
  k0_pay1 ((sM : Memref sig .tc .vmem S2x1x1024 .f32).view.readAt (Elt F) r0.toLoadRect (own m ρ c))
    ((sM : Memref sig .tc .vmem S2x1x1024 .f32).view.readAt (Elt F) r1.toLoadRect (land m ρ c))

/-- Row 0 after the store agrees with `own` on row 0, whatever the buffer held before. -/
theorem own_congr (c : Dev nD) (f : SB (F := F) c) :
    ∀ i ∈ (row0 : Memref sig .tc .vmem S1x1024 .f32).view.set,
      (((sM : Memref sig .tc .vmem S2x1x1024 .f32).access r0 : View sig .tc _ _ _).write (Elt F) f (sums m ρ c) Finset.univ) i = own m ρ c i := by
  intro i hi
  have hi' : i ∈ ((sM : Memref sig .tc .vmem S2x1x1024 .f32).access r0 : View sig .tc _ _ _).set := by
    rw [row0_set] at hi; rw [View.set_slice_whole]; exact hi
  obtain ⟨x, rfl⟩ := View.exists_emb_of_mem_set _ hi'
  unfold own
  rw [View.write_emb_of_mem _ _ (Finset.mem_univ x), View.write_emb_of_mem _ _ (Finset.mem_univ x)]

/-- What the copy lands on row 1 agrees with `land` on row 1, whatever the row held before. -/
theorem land_congr (c : Dev nD) (fd : SB (F := F) c) :
    ∀ i ∈ (row1 : Memref sig .tc .vmem S1x1024 .f32).view.set,
      ((row1 : Memref sig .tc .vmem S1x1024 .f32).view.write (Elt F) fd
        ((row0 : Memref sig .tc .vmem S1x1024 .f32).view.read (Elt F) (own m ρ (pr c))) Finset.univ) i = land m ρ c i := by
  intro i hi
  obtain ⟨x, rfl⟩ := View.exists_emb_of_mem_set _ hi
  unfold land
  rw [View.write_emb_of_mem _ _ (Finset.mem_univ x), View.write_emb_of_mem _ _ (Finset.mem_univ x)]

/-! ## The parts of the scratch buffer as assertions -/

omit [FloatOps F] in
theorem scr_set : (sM : Memref sig .tc .vmem S2x1x1024 .f32).view.set = Finset.univ := View.set_whole _

/-- The whole scratch buffer is its two rows, held side by side at the same contents. -/
theorem scr_split (c : Dev nD) (f : SB (F := F) c) :
    (((c : Thread nD τ).loc cc0_scratch0) ↦{fullShare} f : sProp 𝕄)
      ⊣⊢ iprop(((row0 : Memref sig .tc .vmem S1x1024 .f32).view.loc (c : Thread nD τ) ↦[(row0 : Memref sig .tc .vmem S1x1024 .f32).view.set]{fullShare} f)
          ∗ ((row1 : Memref sig .tc .vmem S1x1024 .f32).view.loc (c : Thread nD τ) ↦[(row1 : Memref sig .tc .vmem S1x1024 .f32).view.set]{fullShare} f)) := by
  have h := pointsTo_union (ℓ := (sM : Memref sig .tc .vmem S2x1x1024 .f32).view.loc (c : Thread nD τ)) (q := fullShare) (f := f)
    (Ix := Unit) (Name := ℕ) (U := UU) (Lvl := ℕ) (rows_disjoint)
  rw [rows_union] at h
  exact h

/-! ## The schedule: one round, one duty per cell

A device's barrier cell is paid one unit by its partner's signal, which hands over the partner's row 1 (so
that the device may copy into it) and the fact that the partner's receive cell stands at its first round. Its
send cell is paid by its own copy once row 0 has been read, which gives row 0 back. Its receive cell is paid
by the partner's copy once row 1 has been written, which gives row 1 back holding the partner's sums. -/

def barPay (c : Dev nD) : sProp 𝕄 :=
  iprop((∃ f, (row1 : Memref sig .tc .vmem S1x1024 .f32).view.loc (pr c : Thread nD τ) ↦[(row1 : Memref sig .tc .vmem S1x1024 .f32).view.set]{fullShare} f)
    ∗ reached ER (recvCell (pr c)) 0)
def recvPay (c : Dev nD) : sProp 𝕄 :=
  (row1 : Memref sig .tc .vmem S1x1024 .f32).view.loc (c : Thread nD τ) ↦[(row1 : Memref sig .tc .vmem S1x1024 .f32).view.set]{fullShare} land m ρ c
def sendPay (c : Dev nD) : sProp 𝕄 :=
  (row0 : Memref sig .tc .vmem S1x1024 .f32).view.loc (c : Thread nD τ) ↦[(row0 : Memref sig .tc .vmem S1x1024 .f32).view.set]{fullShare} own m ρ c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def sched : Rounds.Schedule (GSem nD τ sig) Unit 𝕄 where
  duties g r := if r = 0 ∧ IsBar g then {()} else if r = 0 ∧ IsXfer g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (sched (F := F) m ρ).duties (barCell c) 0 = {()} := by dsimp only [sched]; exact if_pos ⟨rfl, rfl, rfl⟩
theorem duties_send : (sched (F := F) m ρ).duties (sendCell c) 0 = {()} := by
  dsimp only [sched]; rw [if_neg (fun h => not_bar_send c h.2)]; exact if_pos ⟨rfl, rfl, .inl rfl⟩
theorem duties_recv : (sched (F := F) m ρ).duties (recvCell c) 0 = {()} := by
  dsimp only [sched]; rw [if_neg (fun h => not_bar_recv c h.2)]; exact if_pos ⟨rfl, rfl, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels

A device owes its partner's barrier cell one unit (its signal) and its partner's receive cell one row's credit
(its copy). It waits on its own barrier cell while still owing the receive credit, so barrier cells sit below
receive cells; send cells and the staging cells are waited on owing nothing of their own level. -/

def O₀ (c : Dev nD) : CellTallies nD τ sig Unit := tallyAt (recvCell (pr c)) () N + tallyAt (barCell (pr c)) () 1

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pr c) ∨ g = barCell (pr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (pr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The whole scratch buffer of device `c` at contents `f`. -/
def scrPts (c : Dev nD) (f : SB (F := F) c) : sProp 𝕄 := ((c : Thread nD τ).loc cc0_scratch0) ↦{fullShare} f

omit [FloatOps F] in
instance scrPts_storable (c : Dev nD) (f) : BI.Storable (upEmb : UEmb _ 𝕄) (scrPts (F := F) c f) := by unfold scrPts; infer_instance

/-- The cells' invariants device `c`'s body opens, under the names `K` the launch allocated them at: its own three,
    its partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (pr c, 0)) (barCell (pr c)) ∗ cellInv ER (sched m ρ) (K (pr c, 2)) (recvCell (pr c)))

instance invs_persistent (K : Dev nD × Fin 3 → ℕ) (c : Dev nD) : BI.Persistent (invs m ρ K c) := by unfold invs; infer_instance

/-- The exchange's ghost state device `c` starts from: the invariants; its positions at the first round of its three
    cells; the first round reached on the cells it pays and on its own send and receive cells; the three duty
    tokens it pays with — its partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (pr c)) 0 ∗ reached ER (recvCell (pr c)) 0 ∗ reached ER (sendCell c) 0 ∗ reached ER (recvCell c) 0
    ∗ dutyTok ER (barCell (pr c)) 0 () ∗ dutyTok ER (recvCell (pr c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch buffer whole again, the two scoped cells at zero, closed. -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 3 → ℕ) (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.Kernel.Xchg

end
-- ==== Proof.Kernel.Body.lean ====
/-
  The exchange, part two: one device's body, stepped from the state the launch deals it to the state the
  pipeline takes back. In order: it pays its partner's barrier cell one unit, handing over row 1 of its scratch
  buffer; sums its block down the columns into row 0; waits for its own barrier cell, which brings the partner's
  row 1; copies row 0 there; waits until row 0 has been read and until its own row 1 has been written by the
  partner; and stores the sum of the two rows.
-/
import proofs.«901096_g7700000000001097_dist_sum_ax0_xy_m2048_n1024_v7x_xy2x2_bf16_1_alg».proof.Proof.Kernel.Proto

noncomputable section

namespace Cert.Kernel.Xchg

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S2048x1024 .f32).view.readAt (Elt F) rX.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x1024 .f32).access rO : View sig .tc _ _ _).write (Elt F) f w Finset.univ = w :=
  Memref.write_access_unit_zero_univ (Elt F) cc0_stg1_0 hz2 _ f w

/-- The elements a load or a store of row 0 (of row 1) through the whole scratch memref touches are that row's. -/
theorem acc0_set : ((sM : Memref sig .tc .vmem S2x1x1024 .f32).access r0 : View sig .tc _ _ _).set = (row0 : Memref sig .tc .vmem S1x1024 .f32).view.set :=
  (View.set_reshape _ _).symm
theorem acc1_set : ((sM : Memref sig .tc .vmem S2x1x1024 .f32).access r1 : View sig .tc _ _ _).set = (row1 : Memref sig .tc .vmem S1x1024 .f32).view.set :=
  (View.set_reshape _ _).symm
theorem load0_sub : (sM : Memref sig .tc .vmem S2x1x1024 .f32).view.setOn r0.toLoadRect.set ⊆ (row0 : Memref sig .tc .vmem S1x1024 .f32).view.set := by
  rw [← acc0_set, View.set_slice]; exact subset_rfl
theorem load1_sub : (sM : Memref sig .tc .vmem S2x1x1024 .f32).view.setOn r1.toLoadRect.set ⊆ (row1 : Memref sig .tc .vmem S1x1024 .f32).view.set := by
  rw [← acc1_set, View.set_slice]; exact subset_rfl
theorem store0_sub : ((sM : Memref sig .tc .vmem S2x1x1024 .f32).access r0 : View sig .tc _ _ _).setOn Finset.univ ⊆ (row0 : Memref sig .tc .vmem S1x1024 .f32).view.set := by
  rw [View.setOn_univ, acc0_set]

/-- The landing's contents with the sender named apart from the receiver. -/
theorem land_congr' (c c' : Dev nD) (h : pr c = c') (fd : SB (F := F) c) :
    ∀ i ∈ (row1 : Memref sig .tc .vmem S1x1024 .f32).view.set,
      ((row1 : Memref sig .tc .vmem S1x1024 .f32).view.write (Elt F) fd
        ((row0 : Memref sig .tc .vmem S1x1024 .f32).view.read (Elt F) (own m ρ c')) Finset.univ) i = land m ρ c i := by
  subst h; exact land_congr m ρ c fd

/-- The two rows held side by side are the whole scratch buffer at some contents. -/
theorem scr_join (c : Dev nD) (f g : SB (F := F) c) :
    iprop(((row0 : Memref sig .tc .vmem S1x1024 .f32).view.loc (c : Thread nD τ) ↦[(row0 : Memref sig .tc .vmem S1x1024 .f32).view.set]{fullShare} f)
        ∗ ((row1 : Memref sig .tc .vmem S1x1024 .f32).view.loc (c : Thread nD τ) ↦[(row1 : Memref sig .tc .vmem S1x1024 .f32).view.set]{fullShare} g))
      ⊢ (iprop(∃ h, scrPts c h) : sProp 𝕄) := by
  iintro H
  ihave H' := (pointsTo_join (ℓ := (sM : Memref sig .tc .vmem S2x1x1024 .f32).view.loc (c : Thread nD τ)) (q := fullShare) (f := f) (g := g)
    (Ix := Unit) (Name := ℕ) (U := UU) (Lvl := ℕ) rows_disjoint) $$ H
  rw [rows_union]
  iexists _
  unfold scrPts
  iexact H'

set_option maxHeartbeats 800000 in
/-- The copy of row 0 into the partner's row 1, at the exchange's cells; the device it names substituted. -/
theorem wp_send_row (c n : Dev nD) (hn : n = pr c) {hsc : (row1 : Memref sig (Dev.tc n : Thread nD τ).2.kind .vmem S1x1024 .f32).view.ref.isScScratch = false}
    {hsrc : (row0 : Memref sig .tc .vmem S1x1024 .f32).view.WordExact} {hdst : (row1 : Memref sig .tc .vmem S1x1024 .f32).view.WordExact}
    {hsem : DmaTarget.Typed .vmem (.dma recvS.sem) (.remote (Dev.tc n : Thread nD τ) (row1 : Memref sig .tc .vmem S1x1024 .f32) (.dma sendS.sem) hsc)}
    {α : Type} {Q : α → sProp 𝕄} {k : PUnit → Prog (TpuEff nD τ sig (Elt F) Λ₀ .tc) α}
    (fn : SB (F := F) (pr c)) (W : Waits sig Unit) :
    iprop(cellInv ER (sched m ρ) (K (c, 1)) (sendCell c) ∗ cellInv ER (sched m ρ) (K (pr c, 2)) (recvCell (pr c))
        ∗ ((row0 : Memref sig .tc .vmem S1x1024 .f32).view.loc (c : Thread nD τ) ↦[(row0 : Memref sig .tc .vmem S1x1024 .f32).view.set]{fullShare} own m ρ c)
        ∗ ((row1 : Memref sig .tc .vmem S1x1024 .f32).view.loc (pr c : Thread nD τ) ↦[(row1 : Memref sig .tc .vmem S1x1024 .f32).view.set]{fullShare} fn)
        ∗ owes (c : Thread nD τ) (tallyAt (recvCell (pr c)) () N) W
        ∗ dutyTok ER (sendCell c) 0 () ∗ reached ER (sendCell c) 0
        ∗ dutyTok ER (recvCell (pr c)) 0 () ∗ reached ER (recvCell (pr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row0 (.remote (Dev.tc n : Thread nD τ) row1 (.dma sendS.sem) hsc) (.dma recvS.sem) hsrc hdst hsem) k) Q) := by
  subst hn
  exact Rounds.wp_send_pointsTo 𝒱₀ ER (sched m ρ) (c : Thread nD τ) none (c' := (pr c : Thread nD τ))
    (src := (row0 : Memref sig .tc .vmem S1x1024 .f32)) (dst := (row1 : Memref sig .tc .vmem S1x1024 .f32)) (q := fullShare) (fs := own m ρ c)
    (κ₁ := K (c, 1)) (κ₂ := K (pr c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (pr c) ()) 0 (by rw [zero_add]) (W := W)
    (by rw [payload_send]; exact BI.Entails.refl _)
    (by rw [payload_recv]; unfold recvPay; exact Entails.of_eq (pointsTo_congr (land_congr' m ρ (pr c) c (pr_pr c) fn)))

set_option maxHeartbeats 1600000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer as its two rows
  unfold scrPts
  ihave Hrows := (scr_split (F := F) c f0).1 $$ Hscr
  icases Hrows with ⟨Hrow0, Hrow1⟩
  -- the signal to the partner's barrier cell: row 1 goes with it, and that this device's receive cell stands at its first round
  unfold O₀
  iapply (Rounds.wp_signal 𝒱₀ ER (sched m ρ) (c : Thread nD τ) none (dst := (pr c : Thread nD τ)) (κ := K (pr c, 0))
      (d := ()) (by rw [duties_bar]; exact Finset.mem_singleton_self _) ((amount_bar m ρ (pr c) ()).trans (by decide)) () (tallyAt (recvCell (pr c)) () N) rfl)
    $$ [HO HtBP Hrow1]
  · isplitr; · iexact HIbarP
    isplitl [HO]; · iexact HO
    isplitl [HtBP]; · iexact HtBP
    isplitl [Hrow1]
    · rw [payload_bar]; unfold barPay; rw [pr_pr]
      isplitl [Hrow1]; · iexists f0; iexact Hrow1
      iexact HrV
    · iexact HrBP
  iintro HO
  -- the block is read
  iapply (wp_load 𝒱₀ (c : Thread nD τ) none Set.univ (m := xM) (Finset.subset_univ _)) $$ Hx; iintro Hx
  rw [read_x]
  -- row 0 is read (the value is not used) and overwritten with the column sums
  iapply (wp_load 𝒱₀ (c : Thread nD τ) none Set.univ (m := sM) (S := (row0 : Memref sig .tc .vmem S1x1024 .f32).view.set) load0_sub) $$ Hrow0; iintro Hrow0
  iapply (wp_store 𝒱₀ (c : Thread nD τ) none Set.univ (m := sM) (r := r0) (Mk := Finset.univ) (S := (row0 : Memref sig .tc .vmem S1x1024 .f32).view.set) store0_sub) $$ Hrow0; iintro Hrow0
  ihave Hrow0 := (Entails.of_eq (pointsTo_congr (own_congr m ρ c f0))) $$ Hrow0
  -- the wait for one unit on its own barrier cell, still owing the partner's receive credit: the partner's row 1 comes with it
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (pr c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HrowN⟩, #HrVP'⟩
  -- the copy of row 0 into the partner's row 1
  iapply (wp_send_row m ρ K c _ (dev2_eq c) fn (insert (SemLoc.reg barS, ()) W)) $$ [Hrow0 HrowN HO HtS HtVP]
  · isplitr; · iexact HIsnd
    isplitr; · iexact HIrcvP
    isplitl [Hrow0]; · iexact Hrow0
    isplitl [HrowN]; · iexact HrowN
    isplitl [HO]; · iexact HO
    isplitl [HtS]; · iexact HtS
    isplitr; · iexact HrS
    isplitl [HtVP]; · iexact HtVP
    iexact HrVP
  iintro ⟨HcS, HO⟩
  -- the wait on the send cell: row 0 back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hrow0 := (Entails.of_eq (rest_send m ρ c)) $$ Hpay
  -- the wait on the receive cell: row 1 back, holding the partner's column sums
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hrow1 := (Entails.of_eq (rest_recv m ρ c)) $$ Hpay
  unfold sendPay recvPay
  -- the two scoped cells close: their counters at zero are the core's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  -- the two rows are read, the result buffer read (unused) and overwritten with their sum
  iapply (wp_load 𝒱₀ (c : Thread nD τ) none Set.univ (m := sM) (S := (row0 : Memref sig .tc .vmem S1x1024 .f32).view.set) load0_sub) $$ Hrow0; iintro Hrow0
  iapply (wp_load 𝒱₀ (c : Thread nD τ) none Set.univ (m := sM) (S := (row1 : Memref sig .tc .vmem S1x1024 .f32).view.set) load1_sub) $$ Hrow1; iintro Hrow1
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hrow0 Hrow1 HzS HzV]
  · isplitl [Hrow0 Hrow1]
    · iapply (scr_join c _ _)
      isplitl [Hrow0]; · iexact Hrow0
      iexact Hrow1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.Kernel.Xchg

end
-- ==== Proof.Kernel.Launch.lean ====
/-
  The exchange, part three: the launch. The initial ghost element is dealt out per device; one global step turns
  every device's three counters at zero into the three cells' invariants and deals the duty tokens to the devices
  that pay them (a device's barrier and receive tokens go to its partner); the credit each device may wait with is
  what the others owe its cells. With each device's body proved, every fair run of the four devices terminates,
  and the final memory holds each device's argument block unchanged and its result at the sum of the two rows.
-/
import proofs.«901096_g7700000000001097_dist_sum_ax0_xy_m2048_n1024_v7x_xy2x2_bf16_1_alg».proof.Proof.Kernel.Body

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, in the library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pr c)) 0 () ∗ dutyTok ER (recvCell (pr c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (pr c, 0)); iexact HI
    iapply (inv_at m ρ K (pr c, 2)); iexact HI
  isplitl [HaB]; · iexact HaB
  isplitl [HaS]; · iexact HaS
  isplitl [HaV]; · iexact HaV
  isplitr; · iapply (reached_at (F := F) (pr c, 0)); iexact HR
  isplitr; · iapply (reached_at (F := F) (pr c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The partner map as a permutation of the devices. -/
def prE : Dev nD ≃ Dev nD := ⟨pr, pr, pr_pr, pr_pr⟩

omit [FloatOps F] in
/-- The tokens dealt across: a device's barrier token and its receive token go to its partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv prE (fun c : Dev nD => (dutyTok ER (barCell c) 0 () : sProp 𝕄)),
    bigSep_univ_equiv prE (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = pr c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = pr c
  · subst h; rw [pr_pr, if_pos ⟨rfl, rfl⟩, if_pos rfl]
  · rw [if_neg (fun ⟨h1, _⟩ => h (by rw [bar_eq_iff.mp h1, pr_pr])), if_neg h]

omit [FloatOps F] in
theorem owed_recv (d c : Dev nD) : O₀ d (recvCell c) () = if d = pr c then N else 0 := by
  unfold O₀
  rw [Pi.add_apply, Finsupp.add_apply, tallyAt_apply,
    tallyAt_ne_cell (fun h => recv_ne_bar (congrArg Prod.snd h)), Finsupp.zero_apply, Nat.add_zero]
  by_cases h : d = pr c
  · subst h; rw [pr_pr, if_pos ⟨rfl, rfl⟩, if_pos rfl]
  · rw [if_neg (fun ⟨h1, _⟩ => h (by rw [recv_eq_iff.mp h1, pr_pr])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pr c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pr c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrPts
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's two arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Xchg.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Kernel.Xchg

end
-- ==== Proof.KernelIdeal.Proto.lean ====
/-
  The exchange on the 2 × 2 mesh, part one: names. Every device owns one scratch buffer of two rows. Row 0 is
  where it writes the column sums of its own block; row 1 is where its partner's column sums land. The two
  rows are disjoint element sets of the one buffer and together they are all of it, so the buffer can be held
  as two separate parts, one of which is lent to the partner for the duration of the copy.
-/
import proofs.«901096_g7700000000001097_dist_sum_ax0_xy_m2048_n1024_v7x_xy2x2_bf16_1_alg».proof.Defs
import proofs.«901096_g7700000000001097_dist_sum_ax0_xy_m2048_n1024_v7x_xy2x2_bf16_1_alg».proof.Proof.Gen.KernelIdeal
import proofs.«901096_g7700000000001097_dist_sum_ax0_xy_m2048_n1024_v7x_xy2x2_bf16_1_alg».proof.Proof.Gen.KernelIdeal.Skeleton
import proofs.«901096_g7700000000001097_dist_sum_ax0_xy_m2048_n1024_v7x_xy2x2_bf16_1_alg».proof.Proof.Gen.KernelIdeal.Launch
import proofs.«901096_g7700000000001097_dist_sum_ax0_xy_m2048_n1024_v7x_xy2x2_bf16_1_alg».proof.Proof.Peer
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside one for the exchange's three cells per device -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

/-- Device `c`'s partner: the other first mesh coordinate, the same second one. -/
abbrev pr (c : Dev nD) : Dev nD := Cert.Mesh.peer c

theorem pr_pr (c : Dev nD) : pr (pr c) = c := Cert.Mesh.peer_peer c

/-- Both device chains of the body name the partner. -/
theorem dev1_eq (c : Dev nD) : (⟨k0_dev1 c, k0_dev1_lt c⟩ : Dev nD) = pr c :=
  Fin.ext ((k0_dev1_eq c).trans (by revert c; decide))
theorem dev2_eq (c : Dev nD) : (⟨k0_dev2 c, k0_dev2_lt c⟩ : Dev nD) = pr c :=
  Fin.ext ((k0_dev2_eq c).trans (by revert c; decide))

/-! ## The memrefs, the two rows of the scratch buffer, the cells -/

abbrev xM : Memref sig .tc .vmem S2048x1024 .f32 := Memref.whole cc0_stg0_0
abbrev oM : Memref sig .tc .vmem S1x1024 .f32 := Memref.whole cc0_stg1_0
abbrev sM : Memref sig .tc .vmem S2x1x1024 .f32 := Memref.whole cc0_scratch0

abbrev rX : Rect S2048x1024 := Rect.unit (s := S2048x1024) ![0, 0] S2048x1024.size inb_S2048x1024_S2048x1024_0_0
abbrev rO : Rect S1x1024 := Rect.unit (s := S1x1024) ![0, 0] S1x1024.size inb_S1x1024_S1x1024_0_0
abbrev r0 : Rect S2x1x1024 := Rect.unit (s := S2x1x1024) ![0, 0, 0] S1x1x1024.size inb_S2x1x1024_S1x1x1024_0_0_0
abbrev r1 : Rect S2x1x1024 := Rect.unit (s := S2x1x1024) ![1, 0, 0] S1x1x1024.size inb_S2x1x1024_S1x1x1024_1_0_0

/-- Row 0 and row 1 of the scratch buffer as the copy names them: a slice with its unit axis squeezed away. -/
abbrev row0 : Memref sig .tc .vmem S1x1024 .f32 := (sM.slice r0 (fun _ => rfl)).squeeze S1x1024 squeezes_S1x1x1024_S1x1024
abbrev row1 : Memref sig .tc .vmem S1x1024 .f32 := (sM.slice r1 (fun _ => rfl)).squeeze S1x1024 squeezes_S1x1x1024_S1x1024

/-- The barrier semaphore (the runtime's, not scoped), the send and the receive semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- What one copy of a row credits its semaphores. -/
abbrev N : ℕ := (row1 : Memref sig .tc .vmem S1x1024 .f32).view.dmaCredit
theorem N_pos : 0 < N := View.dmaCredit_pos _ (by decide)

/-! ## The rows as element sets -/

theorem row0_set : (row0 : Memref sig .tc .vmem S1x1024 .f32).view.set = r0.set := by
  simp only [Memref.view_squeeze, Memref.view_slice, Memref.view_whole, View.set_reshape, View.set_slice_whole]
theorem row1_set : (row1 : Memref sig .tc .vmem S1x1024 .f32).view.set = r1.set := by
  simp only [Memref.view_squeeze, Memref.view_slice, Memref.view_whole, View.set_reshape, View.set_slice_whole]

theorem rows_disjoint : Disjoint (row0 : Memref sig .tc .vmem S1x1024 .f32).view.set (row1 : Memref sig .tc .vmem S1x1024 .f32).view.set := by
  rw [row0_set, row1_set]
  exact Rect.unit_disjoint (0 : Fin 3) (Or.inl (by decide))

theorem rows_union : (row0 : Memref sig .tc .vmem S1x1024 .f32).view.set ∪ (row1 : Memref sig .tc .vmem S1x1024 .f32).view.set = Finset.univ := by
  rw [row0_set, row1_set]
  ext i
  simp only [Finset.mem_union, Finset.mem_univ, iff_true, Rect.mem_set_unit]
  have h0 : (i 0).val < 2 := (i 0).isLt
  have h1 : (i 1).val < 1 := (i 1).isLt
  have h2 : (i 2).val < 1024 := (i 2).isLt
  by_cases hi : (i 0).val = 0
  · left; intro a; fin_cases a
    · exact ⟨by simp, by simp [hi]⟩
    · exact ⟨by simp, by simpa using h1⟩
    · exact ⟨by simp, by simpa using h2⟩
  · right; intro a; fin_cases a
    · exact ⟨by simp; omega, by simp; omega⟩
    · exact ⟨by simp, by simpa using h1⟩
    · exact ⟨by simp, by simpa using h2⟩

/-! ## Contents

What the rows hold. A device's block of the input, as its staging buffer holds it; the column sums of that
block, as one row; the scratch buffer with row 0 overwritten by those sums; and the scratch buffer with row 1
overwritten by what the partner's row 0 holds. Off the row in question these functions are whatever the
buffer held at launch: a part of a buffer is held at its own elements only. -/

def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block, as the body stores them. -/
def sums (c : Dev nD) : FVec F S1x1x1024 .f32 := k0_pay2 (xstg m ρ c)

abbrev SB (c : Dev nD) : Type := Buf (Elt F) ((sM : Memref sig .tc .vmem S2x1x1024 .f32).view.loc (c : Thread nD τ))

/-- Row 0 of device `c`'s scratch buffer holding its own column sums. -/
def own (c : Dev nD) : SB (F := F) c :=
  ((sM : Memref sig .tc .vmem S2x1x1024 .f32).access r0 : View sig .tc _ _ _).write (Elt F) (m ((c : Thread nD τ).loc cc0_scratch0)) (sums m ρ c) Finset.univ

/-- Row 1 of device `c`'s scratch buffer holding what the partner's row 0 holds. -/
def land (c : Dev nD) : SB (F := F) c :=
  (row1 : Memref sig .tc .vmem S1x1024 .f32).view.write (Elt F) (m ((c : Thread nD τ).loc cc0_scratch0))
    ((row0 : Memref sig .tc .vmem S1x1024 .f32).view.read (Elt F) (own m ρ (pr c))) Finset.univ

/-- The result: the sum of the two rows. -/
def outAt (c : Dev nD) : (cc0_stg1_0 : Ref sig .tc).ty.Contents (Elt F) :=
  k0_pay1 ((sM : Memref sig .tc .vmem S2x1x1024 .f32).view.readAt (Elt F) r0.toLoadRect (own m ρ c))
    ((sM : Memref sig .tc .vmem S2x1x1024 .f32).view.readAt (Elt F) r1.toLoadRect (land m ρ c))

/-- Row 0 after the store agrees with `own` on row 0, whatever the buffer held before. -/
theorem own_congr (c : Dev nD) (f : SB (F := F) c) :
    ∀ i ∈ (row0 : Memref sig .tc .vmem S1x1024 .f32).view.set,
      (((sM : Memref sig .tc .vmem S2x1x1024 .f32).access r0 : View sig .tc _ _ _).write (Elt F) f (sums m ρ c) Finset.univ) i = own m ρ c i := by
  intro i hi
  have hi' : i ∈ ((sM : Memref sig .tc .vmem S2x1x1024 .f32).access r0 : View sig .tc _ _ _).set := by
    rw [row0_set] at hi; rw [View.set_slice_whole]; exact hi
  obtain ⟨x, rfl⟩ := View.exists_emb_of_mem_set _ hi'
  unfold own
  rw [View.write_emb_of_mem _ _ (Finset.mem_univ x), View.write_emb_of_mem _ _ (Finset.mem_univ x)]

/-- What the copy lands on row 1 agrees with `land` on row 1, whatever the row held before. -/
theorem land_congr (c : Dev nD) (fd : SB (F := F) c) :
    ∀ i ∈ (row1 : Memref sig .tc .vmem S1x1024 .f32).view.set,
      ((row1 : Memref sig .tc .vmem S1x1024 .f32).view.write (Elt F) fd
        ((row0 : Memref sig .tc .vmem S1x1024 .f32).view.read (Elt F) (own m ρ (pr c))) Finset.univ) i = land m ρ c i := by
  intro i hi
  obtain ⟨x, rfl⟩ := View.exists_emb_of_mem_set _ hi
  unfold land
  rw [View.write_emb_of_mem _ _ (Finset.mem_univ x), View.write_emb_of_mem _ _ (Finset.mem_univ x)]

/-! ## The parts of the scratch buffer as assertions -/

omit [FloatOps F] in
theorem scr_set : (sM : Memref sig .tc .vmem S2x1x1024 .f32).view.set = Finset.univ := View.set_whole _

/-- The whole scratch buffer is its two rows, held side by side at the same contents. -/
theorem scr_split (c : Dev nD) (f : SB (F := F) c) :
    (((c : Thread nD τ).loc cc0_scratch0) ↦{fullShare} f : sProp 𝕄)
      ⊣⊢ iprop(((row0 : Memref sig .tc .vmem S1x1024 .f32).view.loc (c : Thread nD τ) ↦[(row0 : Memref sig .tc .vmem S1x1024 .f32).view.set]{fullShare} f)
          ∗ ((row1 : Memref sig .tc .vmem S1x1024 .f32).view.loc (c : Thread nD τ) ↦[(row1 : Memref sig .tc .vmem S1x1024 .f32).view.set]{fullShare} f)) := by
  have h := pointsTo_union (ℓ := (sM : Memref sig .tc .vmem S2x1x1024 .f32).view.loc (c : Thread nD τ)) (q := fullShare) (f := f)
    (Ix := Unit) (Name := ℕ) (U := UU) (Lvl := ℕ) (rows_disjoint)
  rw [rows_union] at h
  exact h

/-! ## The schedule: one round, one duty per cell

A device's barrier cell is paid one unit by its partner's signal, which hands over the partner's row 1 (so
that the device may copy into it) and the fact that the partner's receive cell stands at its first round. Its
send cell is paid by its own copy once row 0 has been read, which gives row 0 back. Its receive cell is paid
by the partner's copy once row 1 has been written, which gives row 1 back holding the partner's sums. -/

def barPay (c : Dev nD) : sProp 𝕄 :=
  iprop((∃ f, (row1 : Memref sig .tc .vmem S1x1024 .f32).view.loc (pr c : Thread nD τ) ↦[(row1 : Memref sig .tc .vmem S1x1024 .f32).view.set]{fullShare} f)
    ∗ reached ER (recvCell (pr c)) 0)
def recvPay (c : Dev nD) : sProp 𝕄 :=
  (row1 : Memref sig .tc .vmem S1x1024 .f32).view.loc (c : Thread nD τ) ↦[(row1 : Memref sig .tc .vmem S1x1024 .f32).view.set]{fullShare} land m ρ c
def sendPay (c : Dev nD) : sProp 𝕄 :=
  (row0 : Memref sig .tc .vmem S1x1024 .f32).view.loc (c : Thread nD τ) ↦[(row0 : Memref sig .tc .vmem S1x1024 .f32).view.set]{fullShare} own m ρ c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def sched : Rounds.Schedule (GSem nD τ sig) Unit 𝕄 where
  duties g r := if r = 0 ∧ IsBar g then {()} else if r = 0 ∧ IsXfer g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (sched (F := F) m ρ).duties (barCell c) 0 = {()} := by dsimp only [sched]; exact if_pos ⟨rfl, rfl, rfl⟩
theorem duties_send : (sched (F := F) m ρ).duties (sendCell c) 0 = {()} := by
  dsimp only [sched]; rw [if_neg (fun h => not_bar_send c h.2)]; exact if_pos ⟨rfl, rfl, .inl rfl⟩
theorem duties_recv : (sched (F := F) m ρ).duties (recvCell c) 0 = {()} := by
  dsimp only [sched]; rw [if_neg (fun h => not_bar_recv c h.2)]; exact if_pos ⟨rfl, rfl, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels

A device owes its partner's barrier cell one unit (its signal) and its partner's receive cell one row's credit
(its copy). It waits on its own barrier cell while still owing the receive credit, so barrier cells sit below
receive cells; send cells and the staging cells are waited on owing nothing of their own level. -/

def O₀ (c : Dev nD) : CellTallies nD τ sig Unit := tallyAt (recvCell (pr c)) () N + tallyAt (barCell (pr c)) () 1

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pr c) ∨ g = barCell (pr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (pr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The whole scratch buffer of device `c` at contents `f`. -/
def scrPts (c : Dev nD) (f : SB (F := F) c) : sProp 𝕄 := ((c : Thread nD τ).loc cc0_scratch0) ↦{fullShare} f

omit [FloatOps F] in
instance scrPts_storable (c : Dev nD) (f) : BI.Storable (upEmb : UEmb _ 𝕄) (scrPts (F := F) c f) := by unfold scrPts; infer_instance

/-- The cells' invariants device `c`'s body opens, under the names `K` the launch allocated them at: its own three,
    its partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (pr c, 0)) (barCell (pr c)) ∗ cellInv ER (sched m ρ) (K (pr c, 2)) (recvCell (pr c)))

instance invs_persistent (K : Dev nD × Fin 3 → ℕ) (c : Dev nD) : BI.Persistent (invs m ρ K c) := by unfold invs; infer_instance

/-- The exchange's ghost state device `c` starts from: the invariants; its positions at the first round of its three
    cells; the first round reached on the cells it pays and on its own send and receive cells; the three duty
    tokens it pays with — its partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (pr c)) 0 ∗ reached ER (recvCell (pr c)) 0 ∗ reached ER (sendCell c) 0 ∗ reached ER (recvCell c) 0
    ∗ dutyTok ER (barCell (pr c)) 0 () ∗ dutyTok ER (recvCell (pr c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch buffer whole again, the two scoped cells at zero, closed. -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 3 → ℕ) (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.KernelIdeal.Xchg

end
-- ==== Proof.KernelIdeal.Body.lean ====
/-
  The exchange, part two: one device's body, stepped from the state the launch deals it to the state the
  pipeline takes back. In order: it pays its partner's barrier cell one unit, handing over row 1 of its scratch
  buffer; sums its block down the columns into row 0; waits for its own barrier cell, which brings the partner's
  row 1; copies row 0 there; waits until row 0 has been read and until its own row 1 has been written by the
  partner; and stores the sum of the two rows.
-/
import proofs.«901096_g7700000000001097_dist_sum_ax0_xy_m2048_n1024_v7x_xy2x2_bf16_1_alg».proof.Proof.KernelIdeal.Proto

noncomputable section

namespace Cert.KernelIdeal.Xchg

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S2048x1024 .f32).view.readAt (Elt F) rX.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x1024 .f32).access rO : View sig .tc _ _ _).write (Elt F) f w Finset.univ = w :=
  Memref.write_access_unit_zero_univ (Elt F) cc0_stg1_0 hz2 _ f w

/-- The elements a load or a store of row 0 (of row 1) through the whole scratch memref touches are that row's. -/
theorem acc0_set : ((sM : Memref sig .tc .vmem S2x1x1024 .f32).access r0 : View sig .tc _ _ _).set = (row0 : Memref sig .tc .vmem S1x1024 .f32).view.set :=
  (View.set_reshape _ _).symm
theorem acc1_set : ((sM : Memref sig .tc .vmem S2x1x1024 .f32).access r1 : View sig .tc _ _ _).set = (row1 : Memref sig .tc .vmem S1x1024 .f32).view.set :=
  (View.set_reshape _ _).symm
theorem load0_sub : (sM : Memref sig .tc .vmem S2x1x1024 .f32).view.setOn r0.toLoadRect.set ⊆ (row0 : Memref sig .tc .vmem S1x1024 .f32).view.set := by
  rw [← acc0_set, View.set_slice]; exact subset_rfl
theorem load1_sub : (sM : Memref sig .tc .vmem S2x1x1024 .f32).view.setOn r1.toLoadRect.set ⊆ (row1 : Memref sig .tc .vmem S1x1024 .f32).view.set := by
  rw [← acc1_set, View.set_slice]; exact subset_rfl
theorem store0_sub : ((sM : Memref sig .tc .vmem S2x1x1024 .f32).access r0 : View sig .tc _ _ _).setOn Finset.univ ⊆ (row0 : Memref sig .tc .vmem S1x1024 .f32).view.set := by
  rw [View.setOn_univ, acc0_set]

/-- The landing's contents with the sender named apart from the receiver. -/
theorem land_congr' (c c' : Dev nD) (h : pr c = c') (fd : SB (F := F) c) :
    ∀ i ∈ (row1 : Memref sig .tc .vmem S1x1024 .f32).view.set,
      ((row1 : Memref sig .tc .vmem S1x1024 .f32).view.write (Elt F) fd
        ((row0 : Memref sig .tc .vmem S1x1024 .f32).view.read (Elt F) (own m ρ c')) Finset.univ) i = land m ρ c i := by
  subst h; exact land_congr m ρ c fd

/-- The two rows held side by side are the whole scratch buffer at some contents. -/
theorem scr_join (c : Dev nD) (f g : SB (F := F) c) :
    iprop(((row0 : Memref sig .tc .vmem S1x1024 .f32).view.loc (c : Thread nD τ) ↦[(row0 : Memref sig .tc .vmem S1x1024 .f32).view.set]{fullShare} f)
        ∗ ((row1 : Memref sig .tc .vmem S1x1024 .f32).view.loc (c : Thread nD τ) ↦[(row1 : Memref sig .tc .vmem S1x1024 .f32).view.set]{fullShare} g))
      ⊢ (iprop(∃ h, scrPts c h) : sProp 𝕄) := by
  iintro H
  ihave H' := (pointsTo_join (ℓ := (sM : Memref sig .tc .vmem S2x1x1024 .f32).view.loc (c : Thread nD τ)) (q := fullShare) (f := f) (g := g)
    (Ix := Unit) (Name := ℕ) (U := UU) (Lvl := ℕ) rows_disjoint) $$ H
  rw [rows_union]
  iexists _
  unfold scrPts
  iexact H'

set_option maxHeartbeats 800000 in
/-- The copy of row 0 into the partner's row 1, at the exchange's cells; the device it names substituted. -/
theorem wp_send_row (c n : Dev nD) (hn : n = pr c) {hsc : (row1 : Memref sig (Dev.tc n : Thread nD τ).2.kind .vmem S1x1024 .f32).view.ref.isScScratch = false}
    {hsrc : (row0 : Memref sig .tc .vmem S1x1024 .f32).view.WordExact} {hdst : (row1 : Memref sig .tc .vmem S1x1024 .f32).view.WordExact}
    {hsem : DmaTarget.Typed .vmem (.dma recvS.sem) (.remote (Dev.tc n : Thread nD τ) (row1 : Memref sig .tc .vmem S1x1024 .f32) (.dma sendS.sem) hsc)}
    {α : Type} {Q : α → sProp 𝕄} {k : PUnit → Prog (TpuEff nD τ sig (Elt F) Λ₀ .tc) α}
    (fn : SB (F := F) (pr c)) (W : Waits sig Unit) :
    iprop(cellInv ER (sched m ρ) (K (c, 1)) (sendCell c) ∗ cellInv ER (sched m ρ) (K (pr c, 2)) (recvCell (pr c))
        ∗ ((row0 : Memref sig .tc .vmem S1x1024 .f32).view.loc (c : Thread nD τ) ↦[(row0 : Memref sig .tc .vmem S1x1024 .f32).view.set]{fullShare} own m ρ c)
        ∗ ((row1 : Memref sig .tc .vmem S1x1024 .f32).view.loc (pr c : Thread nD τ) ↦[(row1 : Memref sig .tc .vmem S1x1024 .f32).view.set]{fullShare} fn)
        ∗ owes (c : Thread nD τ) (tallyAt (recvCell (pr c)) () N) W
        ∗ dutyTok ER (sendCell c) 0 () ∗ reached ER (sendCell c) 0
        ∗ dutyTok ER (recvCell (pr c)) 0 () ∗ reached ER (recvCell (pr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma row0 (.remote (Dev.tc n : Thread nD τ) row1 (.dma sendS.sem) hsc) (.dma recvS.sem) hsrc hdst hsem) k) Q) := by
  subst hn
  exact Rounds.wp_send_pointsTo 𝒱₀ ER (sched m ρ) (c : Thread nD τ) none (c' := (pr c : Thread nD τ))
    (src := (row0 : Memref sig .tc .vmem S1x1024 .f32)) (dst := (row1 : Memref sig .tc .vmem S1x1024 .f32)) (q := fullShare) (fs := own m ρ c)
    (κ₁ := K (c, 1)) (κ₂ := K (pr c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (pr c) ()) 0 (by rw [zero_add]) (W := W)
    (by rw [payload_send]; exact BI.Entails.refl _)
    (by rw [payload_recv]; unfold recvPay; exact Entails.of_eq (pointsTo_congr (land_congr' m ρ (pr c) c (pr_pr c) fn)))

set_option maxHeartbeats 1600000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer as its two rows
  unfold scrPts
  ihave Hrows := (scr_split (F := F) c f0).1 $$ Hscr
  icases Hrows with ⟨Hrow0, Hrow1⟩
  -- the signal to the partner's barrier cell: row 1 goes with it, and that this device's receive cell stands at its first round
  unfold O₀
  iapply (Rounds.wp_signal 𝒱₀ ER (sched m ρ) (c : Thread nD τ) none (dst := (pr c : Thread nD τ)) (κ := K (pr c, 0))
      (d := ()) (by rw [duties_bar]; exact Finset.mem_singleton_self _) ((amount_bar m ρ (pr c) ()).trans (by decide)) () (tallyAt (recvCell (pr c)) () N) rfl)
    $$ [HO HtBP Hrow1]
  · isplitr; · iexact HIbarP
    isplitl [HO]; · iexact HO
    isplitl [HtBP]; · iexact HtBP
    isplitl [Hrow1]
    · rw [payload_bar]; unfold barPay; rw [pr_pr]
      isplitl [Hrow1]; · iexists f0; iexact Hrow1
      iexact HrV
    · iexact HrBP
  iintro HO
  -- the block is read
  iapply (wp_load 𝒱₀ (c : Thread nD τ) none Set.univ (m := xM) (Finset.subset_univ _)) $$ Hx; iintro Hx
  rw [read_x]
  -- row 0 is read (the value is not used) and overwritten with the column sums
  iapply (wp_load 𝒱₀ (c : Thread nD τ) none Set.univ (m := sM) (S := (row0 : Memref sig .tc .vmem S1x1024 .f32).view.set) load0_sub) $$ Hrow0; iintro Hrow0
  iapply (wp_store 𝒱₀ (c : Thread nD τ) none Set.univ (m := sM) (r := r0) (Mk := Finset.univ) (S := (row0 : Memref sig .tc .vmem S1x1024 .f32).view.set) store0_sub) $$ Hrow0; iintro Hrow0
  ihave Hrow0 := (Entails.of_eq (pointsTo_congr (own_congr m ρ c f0))) $$ Hrow0
  -- the wait for one unit on its own barrier cell, still owing the partner's receive credit: the partner's row 1 comes with it
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (pr c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HrowN⟩, #HrVP'⟩
  -- the copy of row 0 into the partner's row 1
  iapply (wp_send_row m ρ K c _ (dev2_eq c) fn (insert (SemLoc.reg barS, ()) W)) $$ [Hrow0 HrowN HO HtS HtVP]
  · isplitr; · iexact HIsnd
    isplitr; · iexact HIrcvP
    isplitl [Hrow0]; · iexact Hrow0
    isplitl [HrowN]; · iexact HrowN
    isplitl [HO]; · iexact HO
    isplitl [HtS]; · iexact HtS
    isplitr; · iexact HrS
    isplitl [HtVP]; · iexact HtVP
    iexact HrVP
  iintro ⟨HcS, HO⟩
  -- the wait on the send cell: row 0 back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hrow0 := (Entails.of_eq (rest_send m ρ c)) $$ Hpay
  -- the wait on the receive cell: row 1 back, holding the partner's column sums
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hrow1 := (Entails.of_eq (rest_recv m ρ c)) $$ Hpay
  unfold sendPay recvPay
  -- the two scoped cells close: their counters at zero are the core's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  -- the two rows are read, the result buffer read (unused) and overwritten with their sum
  iapply (wp_load 𝒱₀ (c : Thread nD τ) none Set.univ (m := sM) (S := (row0 : Memref sig .tc .vmem S1x1024 .f32).view.set) load0_sub) $$ Hrow0; iintro Hrow0
  iapply (wp_load 𝒱₀ (c : Thread nD τ) none Set.univ (m := sM) (S := (row1 : Memref sig .tc .vmem S1x1024 .f32).view.set) load1_sub) $$ Hrow1; iintro Hrow1
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hrow0 Hrow1 HzS HzV]
  · isplitl [Hrow0 Hrow1]
    · iapply (scr_join c _ _)
      isplitl [Hrow0]; · iexact Hrow0
      iexact Hrow1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.KernelIdeal.Xchg

end
-- ==== Proof.KernelIdeal.Launch.lean ====
/-
  The exchange, part three: the launch. The initial ghost element is dealt out per device; one global step turns
  every device's three counters at zero into the three cells' invariants and deals the duty tokens to the devices
  that pay them (a device's barrier and receive tokens go to its partner); the credit each device may wait with is
  what the others owe its cells. With each device's body proved, every fair run of the four devices terminates,
  and the final memory holds each device's argument block unchanged and its result at the sum of the two rows.
-/
import proofs.«901096_g7700000000001097_dist_sum_ax0_xy_m2048_n1024_v7x_xy2x2_bf16_1_alg».proof.Proof.KernelIdeal.Body

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, in the library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pr c)) 0 () ∗ dutyTok ER (recvCell (pr c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (pr c, 0)); iexact HI
    iapply (inv_at m ρ K (pr c, 2)); iexact HI
  isplitl [HaB]; · iexact HaB
  isplitl [HaS]; · iexact HaS
  isplitl [HaV]; · iexact HaV
  isplitr; · iapply (reached_at (F := F) (pr c, 0)); iexact HR
  isplitr; · iapply (reached_at (F := F) (pr c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The partner map as a permutation of the devices. -/
def prE : Dev nD ≃ Dev nD := ⟨pr, pr, pr_pr, pr_pr⟩

omit [FloatOps F] in
/-- The tokens dealt across: a device's barrier token and its receive token go to its partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv prE (fun c : Dev nD => (dutyTok ER (barCell c) 0 () : sProp 𝕄)),
    bigSep_univ_equiv prE (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = pr c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = pr c
  · subst h; rw [pr_pr, if_pos ⟨rfl, rfl⟩, if_pos rfl]
  · rw [if_neg (fun ⟨h1, _⟩ => h (by rw [bar_eq_iff.mp h1, pr_pr])), if_neg h]

omit [FloatOps F] in
theorem owed_recv (d c : Dev nD) : O₀ d (recvCell c) () = if d = pr c then N else 0 := by
  unfold O₀
  rw [Pi.add_apply, Finsupp.add_apply, tallyAt_apply,
    tallyAt_ne_cell (fun h => recv_ne_bar (congrArg Prod.snd h)), Finsupp.zero_apply, Nat.add_zero]
  by_cases h : d = pr c
  · subst h; rw [pr_pr, if_pos ⟨rfl, rfl⟩, if_pos rfl]
  · rw [if_neg (fun ⟨h1, _⟩ => h (by rw [recv_eq_iff.mp h1, pr_pr])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pr c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pr c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrPts
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's two arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Xchg.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Xchg

end
-- ==== Proof.KernelIdeal.ScratchValue.lean ====
/-
  What the scratch buffer's two rows read back as. A block that is the whole of its array reads the array;
  a row read back through the rectangle it was written through reads what was written; and a row written
  through the rectangle's squeezed form, with what another row's squeezed form reads, reads back through the
  rectangle as what that other row holds under its own rectangle: squeezing re-indexes both rows the same way.
-/
import proofs.«901096_g7700000000001097_dist_sum_ax0_xy_m2048_n1024_v7x_xy2x2_bf16_1_alg».proof.Proof.KernelIdeal.Proto
import Idealize.ShloMosaic.Lib.Writes

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The input window's one block is the whole array at block index 0: reading the block reads the array. -/
theorem xstg_eq (c : Dev nD) : xstg m ρ c = m ((c : Thread nD τ).loc main_arg0) := by
  have hz : (fun a => (win0_0.index (0 : Fin 1)) a * main_arg0.ty.shape.size a) = fun _ => 0 :=
    funext fun a => Nat.zero_mul _
  exact Memref.read_access_unit_zero (Elt F) main_arg0 hz _ _

/-- Row 0, read through the rectangle it was written through, reads the column sums written there. -/
theorem read_own (c : Dev nD) :
    (sM : Memref sig .tc .vmem S2x1x1024 .f32).view.readAt (Elt F) r0.toLoadRect (own m ρ c) = sums m ρ c := by
  unfold own
  exact View.read_write_univ _ _

omit [FloatOps F] in
/-- A reshaped view reads, at an index, what the view reads at the index of the same row-major position. -/
theorem read_reshape_apply {κ : Kind} {sp : Space} {s s' : Shape} {e : EltTy} (v : View sig κ sp s e)
    (h : s'.numel = s.numel) (f : v.ty.Contents (Elt F)) (y : s'.Idx) :
    (v.reshape s' h).read (Elt F) f y = v.read (Elt F) f (Shape.reshapeEquiv h y) := rfl

/-- Row 1, read through its rectangle after the partner's row 0 landed on it, reads the partner's column sums. -/
theorem read_land (c : Dev nD) :
    (sM : Memref sig .tc .vmem S2x1x1024 .f32).view.readAt (Elt F) r1.toLoadRect (land m ρ c) = sums m ρ (pr c) := by
  unfold land
  show ((sM : Memref sig .tc .vmem S2x1x1024 .f32).view.slice r1).read (Elt F)
    ((((sM : Memref sig .tc .vmem S2x1x1024 .f32).view.slice r1).reshape S1x1024 squeezes_S1x1x1024_S1x1024.numel_eq).write (Elt F) _ _ Finset.univ) = _
  rw [View.write_reshape_univ, View.read_write_univ]
  funext x
  show (((sM : Memref sig .tc .vmem S2x1x1024 .f32).view.slice r0).reshape S1x1024 squeezes_S1x1x1024_S1x1024.numel_eq).read (Elt F) (own m ρ (pr c)) _ = _
  rw [read_reshape_apply, Equiv.apply_symm_apply]
  exact congrFun (read_own m ρ (pr c)) x

/-- The result a device stores: the sum of its own block's row of column sums and its partner's block's. -/
theorem outAt_eq (c : Dev nD) :
    outAt m ρ c = k0_pay1 (k0_pay2 (m ((c : Thread nD τ).loc main_arg0))) (k0_pay2 (m ((Dev.tc (pr c) : Thread nD τ).loc main_arg0))) := by
  unfold outAt
  rw [read_own, read_land]
  unfold sums
  rw [xstg_eq, xstg_eq]

/-- info: 'Cert.KernelIdeal.Xchg.outAt_eq' depends on axioms: [propext, Classical.choice, Quot.sound] -/
#guard_msgs in #print axioms outAt_eq

end Cert.KernelIdeal.Xchg

end
-- ==== Proof.KernelIdeal.Final.lean ====
/-
  The exchange, part four: what the run leaves in memory, read as values. The argument block is never written;
  the result array is written back once, whole, with the sum of the two rows.
-/
import proofs.«901096_g7700000000001097_dist_sum_ax0_xy_m2048_n1024_v7x_xy2x2_bf16_1_alg».proof.Proof.KernelIdeal.Launch
import proofs.«901096_g7700000000001097_dist_sum_ax0_xy_m2048_n1024_v7x_xy2x2_bf16_1_alg».proof.Proof.KernelIdeal.ScratchValue
import proofs.«901096_g7700000000001097_dist_sum_ax0_xy_m2048_n1024_v7x_xy2x2_bf16_1_alg».proof.Proof.Gen.KernelIdeal.Points

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The result window's block index is zero on both axes at the one point. -/
theorem idx_out : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Under the whole-array block an index of the block is the same index of the array. -/
theorem emb_out (t : Fin cfg0.N) (j : ((cfg0.win 1).xblock (cfg0.grid.coords t)).Idx) :
    ((cfg0.win 1).blk t).view.emb j = (cfg0.win 1).xinj (cfg0.grid.coords t) j := by
  obtain ⟨e0, e1⟩ := idx_out t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- What the one point writes back is the result, read through the whole-array block. -/
theorem flushed_out (c : Dev nD) (t : Fin cfg0.N) :
    (dats m ρ 0 c).flushed 1 t = ((cfg0.win 1).blk t).view.read (Elt F) (outAt m ρ c) := by
  funext j
  rw [View.read_apply, emb_out t j, cast_eq]
  rfl

/-- The one point's block is the whole array. -/
theorem cover_out (c : Dev nD) (i : ((cfg0.win 1).arr.view.loc (c : Thread nD τ)).2.ty.Idx) :
    ∃ t : Fin cfg0.N, (cfg0.win 1).flush t = true ∧ i ∈ ((cfg0.win 1).blk t).view.set := by
  refine ⟨t₀, flush0_1 t₀, ?_⟩
  show i ∈ ((View.whole main_v1).slice (win0_1.rect t₀)).set
  rw [View.set_slice_whole, Rect.mem_set_unit]
  obtain ⟨e0, e1⟩ := idx_out t₀
  intro a
  match a with
  | ⟨0, _⟩ =>
    show win0_1.index t₀ (0 : Fin 2) * 1 ≤ (i 0).val ∧ (i 0).val < win0_1.index t₀ (0 : Fin 2) * 1 + 1
    have h : (i 0).val < 1 := (i 0).isLt
    omega
  | ⟨1, _⟩ =>
    show win0_1.index t₀ (1 : Fin 2) * 1024 ≤ (i 1).val ∧ (i 1).val < win0_1.index t₀ (1 : Fin 2) * 1024 + 1024
    have h : (i 1).val < 1024 := (i 1).isLt
    omega

/-- The result array after the run holds the sum of the two rows. -/
theorem finalA_out (c : Dev nD) : finalA m ρ c (1 : Fin 2) = outAt m ρ c :=
  (dats (F := F) m ρ 0 c).arrAt_eq_of_cover (1 : Fin 2) (outAt m ρ c) (fun t _ => flushed_out m ρ c t) (cover_out c)

/-- The result array after the run, as a function of the launch memory: the column sums of the device's block
    plus the column sums of its partner's. -/
theorem finalA_out_eq (c : Dev nD) :
    finalA m ρ c (1 : Fin 2) = k0_pay1 (k0_pay2 (m ((c : Thread nD τ).loc main_arg0))) (k0_pay2 (m ((Dev.tc (pr c) : Thread nD τ).loc main_arg0))) :=
  (finalA_out m ρ c).trans (outAt_eq m ρ c)

/-- info: 'Cert.KernelIdeal.Xchg.finalA_out_eq' depends on axioms: [propext, Classical.choice, Quot.sound] -/
#guard_msgs in #print axioms finalA_out_eq

end Cert.KernelIdeal.Xchg

end
-- ==== Proof.RowSumValue.lean ====
/-
  The value of the row sum over a 2 × 2 mesh.

  The whole input X has 4096 rows and 2048 columns. Device c, at mesh position (c / 2, c % 2), holds the
  block of X whose rows are 2048 (c / 2) + r and whose columns are 1024 (c % 2) + l. Each device sums its
  block over the rows, and adds to that row of 1024 sums the row its partner computed; the partner is the
  device with the other first coordinate and the same second one, so between them the two blocks hold every
  row of the columns 1024 (c % 2) + l. The reference sums X over all 4096 rows. At the extended reals
  addition is commutative and associative whatever the infinities, so the sum over 4096 rows is the sum
  over the upper 2048 plus the sum over the lower 2048, in either order.
-/
import proofs.«901096_g7700000000001097_dist_sum_ax0_xy_m2048_n1024_v7x_xy2x2_bf16_1_alg».proof.Defs
import proofs.«901096_g7700000000001097_dist_sum_ax0_xy_m2048_n1024_v7x_xy2x2_bf16_1_alg».proof.Proof.Gen.KernelIdeal.Skeleton
import proofs.«901096_g7700000000001097_dist_sum_ax0_xy_m2048_n1024_v7x_xy2x2_bf16_1_alg».proof.Proof.Gen.ReferenceIdeal.Run
import proofs.«901096_g7700000000001097_dist_sum_ax0_xy_m2048_n1024_v7x_xy2x2_bf16_1_alg».proof.Proof.Gen.ReferenceIdeal.Read
import proofs.«901096_g7700000000001097_dist_sum_ax0_xy_m2048_n1024_v7x_xy2x2_bf16_1_alg».proof.Proof.Gen.Pre_finite_inputs_ReferenceIdeal
import proofs.«901096_g7700000000001097_dist_sum_ax0_xy_m2048_n1024_v7x_xy2x2_bf16_1_alg».proof.Proof.Peer
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.RowSum

open Idealize.ShloMosaic Idealize.SL.Sem Idealize.ShloMosaic.ValueIdx

/-! ## A column's sum over 4096 rows is the sum over its two halves, in either order -/

/-- The sum of a column over all 4096 rows is the sum over the rows of one half plus the sum over the rows of
    the other half, whichever half comes first: addition of extended reals is commutative and associative,
    the infinities included. -/
theorem sum_halves (f : Fin 4096 → EReal) (b : Fin 2) :
    (∑ r : Fin 2048, f ⟨b.val * 2048 + r.val, by have := b.isLt; have := r.isLt; omega⟩)
      + (∑ r : Fin 2048, f ⟨(1 - b.val) * 2048 + r.val, by have := b.isLt; have := r.isLt; omega⟩)
    = ∑ k : Fin 4096, f k := by
  have split : (∑ k : Fin 4096, f k)
      = (∑ r : Fin 2048, f ⟨0 * 2048 + r.val, by have := r.isLt; omega⟩)
        + (∑ r : Fin 2048, f ⟨1 * 2048 + r.val, by have := r.isLt; omega⟩) := by
    refine (Fin.sum_univ_add (a := 2048) (b := 2048) f).trans ?_
    refine congrArg₂ (· + ·) (Finset.sum_congr rfl fun r _ => congrArg f (Fin.ext ?_))
      (Finset.sum_congr rfl fun r _ => congrArg f (Fin.ext ?_))
    · show r.val = 0 * 2048 + r.val; omega
    · show 2048 + r.val = 1 * 2048 + r.val; omega
  rw [split]
  match b with
  | ⟨0, _⟩ => rfl
  | ⟨1, _⟩ => exact add_comm (G := EReal) _ _

/-! ## The reference -/

/-- The reference's result as one function of its whole argument array: the sum of X over its 4096 rows from
    the initial value 0, laid out as one row of 2048 entries. -/
def refOut (X : (⟨Cert.ReferenceIdeal.S4096x2048, .f32⟩ : BufTy).Contents (Elt Ideal)) :
    (⟨Cert.ReferenceIdeal.S1x2048, .f32⟩ : BufTy).Contents (Elt Ideal) :=
  Cert.ReferenceIdeal.Read.val_main_v1 (F := Ideal) X

/-- Entry (u, q) of the reference's result is the sum over all 4096 rows of column q. -/
theorem refOut_apply (X : (⟨Cert.ReferenceIdeal.S4096x2048, .f32⟩ : BufTy).Contents (Elt Ideal)) (u : Fin 1) (q : Fin 2048) :
    refOut X (ix2 u q) = ∑ k : Fin 4096, X (ix2 k q) := by
  unfold refOut
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  refine Finset.sum_congr rfl fun k _ => congrArg X (funext fun a => Fin.ext ?_)
  match a with
  | ⟨0, _⟩ => rfl
  | ⟨1, _⟩ => rfl

/-- Every fair run of the reference ends with its result buffer at `refOut` of the argument array and the
    argument array unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq _), (h 0).2⟩)
    (Cert.ReferenceIdeal.Value.run (F := Ideal) m' g')

/-- The reference runs and leaves its argument array unchanged. -/
theorem frame_ri : Cert.frame_ReferenceIdeal := fun m ρ _ =>
  (θ_run Cert.ReferenceIdeal.defs _ _).mono (fun _ h c => (h c).2) (Cert.ReferenceIdeal.Value.run (F := Ideal) m ρ)

/-! ## The kernel's two payloads at a lane -/

open Cert.KernelIdeal Cert.KernelIdeal.Gen in
/-- The row a device sends: lane l holds the sum of column l of its block over the block's 2048 rows. -/
theorem pay2_apply (x : FVec Ideal S2048x1024 .f32) (u v : Fin 1) (l : Fin 1024) :
    k0_pay2 (F := Ideal) x (ix3 u v l) = ∑ r : Fin 2048, x (ix2 r l) := by
  unfold k0_pay2
  refine (shapeCast_ab_1ab_apply _ _ u v l).trans ?_
  refine (shapeCast_a_1a_apply _ _ v l).trans ?_
  refine (Ideal.multiReduction_add_single _ _ _ _ _ (ix1 l)).trans ?_
  refine Finset.sum_congr rfl fun r _ => ?_
  rw [shapeCast_self]
  refine congrArg x (funext fun a => Fin.ext ?_)
  match a with
  | ⟨0, _⟩ => rfl
  | ⟨1, _⟩ => rfl

open Cert.KernelIdeal Cert.KernelIdeal.Gen in
/-- The row a device outputs: lane l holds the sum of the two rows' lanes l. -/
theorem pay1_apply (y z : FVec Ideal S1x1x1024 .f32) (u : Fin 1) (l : Fin 1024) :
    k0_pay1 (F := Ideal) y z (ix2 u l) = y (ix3 (0 : Fin 1) u l) + z (ix3 (0 : Fin 1) u l) := by
  unfold k0_pay1
  rw [addf_apply, shapeCast_1ab_ab_apply, shapeCast_1ab_ab_apply]

/-! ## Where a device's block lies in the whole array -/

/-- Device c's block coordinates in the input: (c / 2, c % 2). -/
theorem blk_in_0 (c : Fin 4) : ((Layout.meshBlock [2, 2] ![[0], [1]] c) 0).val = c.val / 2 := by revert c; decide
theorem blk_in_1 (c : Fin 4) : ((Layout.meshBlock [2, 2] ![[0], [1]] c) 1).val = c.val % 2 := by revert c; decide
/-- Device c's block coordinates in the result, which is cut along its columns only: (0, c % 2). -/
theorem blk_out_0 (c : Fin 4) : ((Layout.meshBlock [2, 2] ![[], [1]] c) 0).val = 0 := by revert c; decide
theorem blk_out_1 (c : Fin 4) : ((Layout.meshBlock [2, 2] ![[], [1]] c) 1).val = c.val % 2 := by revert c; decide

/-- Entry (r, l) of device c's block of the input is entry (2048 (c / 2) + r, 1024 (c % 2) + l) of the whole. -/
theorem in_block_apply {α : Type} (X : (⟨2, ![4096, 2048]⟩ : Shape).Idx → α) (c : Fin 4) (r : Fin 2048) (l : Fin 1024) :
    (Layout.blockN ⟨2, ![2048, 1024]⟩ ⟨2, ![4096, 2048]⟩ (Layout.meshBlock [2, 2] ![[0], [1]] c) X) (ix2 r l)
      = X (ix2 (⟨c.val / 2 * 2048 + r.val, by have := c.isLt; have := r.isLt; omega⟩ : Fin 4096)
            (⟨c.val % 2 * 1024 + l.val, by have := l.isLt; omega⟩ : Fin 2048)) := by
  refine congrArg X (Shape.idx_ext₂ ?_ ?_)
  · show ((Layout.meshBlock [2, 2] ![[0], [1]] c) 0).val * 2048 + r.val = c.val / 2 * 2048 + r.val
    rw [blk_in_0]
  · show ((Layout.meshBlock [2, 2] ![[0], [1]] c) 1).val * 1024 + l.val = c.val % 2 * 1024 + l.val
    rw [blk_in_1]

/-- Entry (u, l) of device c's block of the result is entry (0, 1024 (c % 2) + l) of the whole row. -/
theorem out_block_apply {α : Type} (Y : (⟨2, ![1, 2048]⟩ : Shape).Idx → α) (c : Fin 4) (u : Fin 1) (l : Fin 1024) :
    (Layout.blockN ⟨2, ![1, 1024]⟩ ⟨2, ![1, 2048]⟩ (Layout.meshBlock [2, 2] ![[], [1]] c) Y) (ix2 u l)
      = Y (ix2 (0 : Fin 1) (⟨c.val % 2 * 1024 + l.val, by have := l.isLt; omega⟩ : Fin 2048)) := by
  refine congrArg Y (Shape.idx_ext₂ ?_ ?_)
  · show ((Layout.meshBlock [2, 2] ![[], [1]] c) 0).val * 1 + u.val = 0
    rw [blk_out_0]; omega
  · show ((Layout.meshBlock [2, 2] ![[], [1]] c) 1).val * 1024 + l.val = c.val % 2 * 1024 + l.val
    rw [blk_out_1]

/-! ## A device's output is its block of the reference's -/

/-- What device c leaves in its result buffer, the sum of its own row of column sums and its partner's, is its
    block of the reference's result: column 1024 (c % 2) + l summed over the 2048 rows of c's block and over the
    2048 rows of the partner's block, which together are all 4096 rows. -/
theorem out_block (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.Gen.k0_pay1 (F := Ideal)
        (Cert.KernelIdeal.Gen.k0_pay2 (F := Ideal) (m ((c.tc : Thread Cert.KernelIdeal.nD Cert.KernelIdeal.τ).loc Cert.KernelIdeal.main_arg0)))
        (Cert.KernelIdeal.Gen.k0_pay2 (F := Ideal) (m ((Dev.tc (Cert.Mesh.peer c) : Thread Cert.KernelIdeal.nD Cert.KernelIdeal.τ).loc Cert.KernelIdeal.main_arg0)))
      = Layout.blockN ⟨2, ![1, 1024]⟩ ⟨2, ![1, 2048]⟩ (Layout.meshBlock [2, 2] ![[], [1]] c) (refOut (m' (((0 : Dev Cert.ReferenceIdeal.nD).tc : Thread Cert.ReferenceIdeal.nD Cert.ReferenceIdeal.τ).loc Cert.ReferenceIdeal.main_arg0))) := by
  funext j
  obtain ⟨u, l, rfl⟩ : ∃ (u : Fin 1) (l : Fin 1024), j = ix2 u l := ⟨j 0, j 1, eq_ix2 j⟩
  rw [pay1_apply, pay2_apply, pay2_apply, hagree c, hagree (Cert.Mesh.peer c), out_block_apply, refOut_apply]
  obtain ⟨hp1, hp0⟩ := Cert.Mesh.peer_coords c
  refine Eq.trans ?_ (sum_halves (fun k => m' (((0 : Dev Cert.ReferenceIdeal.nD).tc : Thread Cert.ReferenceIdeal.nD Cert.ReferenceIdeal.τ).loc Cert.ReferenceIdeal.main_arg0) (ix2 k (⟨c.val % 2 * 1024 + l.val, by have := l.isLt; omega⟩ : Fin 2048)))
    ⟨c.val / 2, by have := c.isLt; omega⟩)
  refine congrArg₂ (· + ·) (Finset.sum_congr rfl fun r _ => ?_) (Finset.sum_congr rfl fun r _ => ?_)
  · exact in_block_apply _ c r l
  · refine (in_block_apply _ (Cert.Mesh.peer c) r l).trans ?_
    refine congrArg (m' (((0 : Dev Cert.ReferenceIdeal.nD).tc : Thread Cert.ReferenceIdeal.nD Cert.ReferenceIdeal.τ).loc Cert.ReferenceIdeal.main_arg0)) (Shape.idx_ext₂ ?_ ?_)
    · show (Cert.Mesh.peer c).val / 2 * 2048 + r.val = (1 - c.val / 2) * 2048 + r.val
      rw [hp0]
    · show (Cert.Mesh.peer c).val % 2 * 1024 + l.val = c.val % 2 * 1024 + l.val
      rw [hp1]

/-- info: 'Cert.RowSum.out_block' depends on axioms: [propext, Classical.choice, Quot.sound] -/
#guard_msgs in #print axioms out_block

/-- info: 'Cert.RowSum.ref_run' depends on axioms: [propext, Classical.choice, Quot.sound] -/
#guard_msgs in #print axioms ref_run

end Cert.RowSum

end
-- ==== Proof.lean ====
/-
  Four devices on a 2 × 2 mesh each hold one block of a matrix: the matrix is cut in two along the rows and in two
  along the columns, device (i, j) holding block (i, j). The result wanted is the sum of the matrix down its columns,
  cut in two along the columns, device (i, j) holding part j. Each device sums its own block down the columns into
  one row, sends that row to the device with the other row-block and the same column-block, and adds the row it
  receives from that device to its own. The sum down a whole column is the sum down its upper half plus the sum
  down its lower half, in either order, on the extended reals as on the reals, infinities or not; so every device
  ends with its part of the column sums, which is what the one-device reference computes over the whole matrix.

  The exchange is safe because each device tells its partner, on a semaphore both share by name, that it is inside
  the kernel before the partner copies into its scratch row, and because nobody reads a row while a copy into it
  or out of it is still in flight: each device waits for its own copy to have been read out and for its partner's
  copy to have landed before it reads either row.

  The three frames are that run with the values dropped; the word-level program and its idealization differ in no
  operation; the value claim is the run at the extended reals beside the reference's run.
-/
import proofs.«901096_g7700000000001097_dist_sum_ax0_xy_m2048_n1024_v7x_xy2x2_bf16_1_alg».proof.Defs
import proofs.«901096_g7700000000001097_dist_sum_ax0_xy_m2048_n1024_v7x_xy2x2_bf16_1_alg».proof.Proof.Gen.Kernel
import proofs.«901096_g7700000000001097_dist_sum_ax0_xy_m2048_n1024_v7x_xy2x2_bf16_1_alg».proof.Proof.Gen.Kernel.Skeleton
import proofs.«901096_g7700000000001097_dist_sum_ax0_xy_m2048_n1024_v7x_xy2x2_bf16_1_alg».proof.Proof.Gen.Kernel.Launch
import proofs.«901096_g7700000000001097_dist_sum_ax0_xy_m2048_n1024_v7x_xy2x2_bf16_1_alg».proof.Proof.Gen.Kernel.Points
import proofs.«901096_g7700000000001097_dist_sum_ax0_xy_m2048_n1024_v7x_xy2x2_bf16_1_alg».proof.Proof.Gen.Kernel.Frame
import proofs.«901096_g7700000000001097_dist_sum_ax0_xy_m2048_n1024_v7x_xy2x2_bf16_1_alg».proof.Proof.Gen.KernelIdeal
import proofs.«901096_g7700000000001097_dist_sum_ax0_xy_m2048_n1024_v7x_xy2x2_bf16_1_alg».proof.Proof.Gen.KernelIdeal.Skeleton
import proofs.«901096_g7700000000001097_dist_sum_ax0_xy_m2048_n1024_v7x_xy2x2_bf16_1_alg».proof.Proof.Gen.KernelIdeal.Launch
import proofs.«901096_g7700000000001097_dist_sum_ax0_xy_m2048_n1024_v7x_xy2x2_bf16_1_alg».proof.Proof.Gen.KernelIdeal.Points
import proofs.«901096_g7700000000001097_dist_sum_ax0_xy_m2048_n1024_v7x_xy2x2_bf16_1_alg».proof.Proof.Gen.KernelIdeal.Frame
import proofs.«901096_g7700000000001097_dist_sum_ax0_xy_m2048_n1024_v7x_xy2x2_bf16_1_alg».proof.Proof.Gen.ReferenceIdeal
import proofs.«901096_g7700000000001097_dist_sum_ax0_xy_m2048_n1024_v7x_xy2x2_bf16_1_alg».proof.Proof.Gen.Pre_finite_inputs_Kernel
import proofs.«901096_g7700000000001097_dist_sum_ax0_xy_m2048_n1024_v7x_xy2x2_bf16_1_alg».proof.Proof.Gen.Pre_finite_inputs_ReferenceIdeal
import proofs.«901096_g7700000000001097_dist_sum_ax0_xy_m2048_n1024_v7x_xy2x2_bf16_1_alg».proof.Proof.Kernel.Launch
import proofs.«901096_g7700000000001097_dist_sum_ax0_xy_m2048_n1024_v7x_xy2x2_bf16_1_alg».proof.Proof.KernelIdeal.Final
import proofs.«901096_g7700000000001097_dist_sum_ax0_xy_m2048_n1024_v7x_xy2x2_bf16_1_alg».proof.Proof.RowSumValue
import Idealize.ShloMosaic.Adequacy
import Idealize.ShloMosaic.Init

noncomputable section

namespace Cert.Proof

open Idealize.ShloMosaic Idealize.SL.Sem

/-- The word-level program runs to the end on all four devices and leaves every device's argument block as it was:
    the exchange's run, its values dropped. -/
theorem frame_k : Cert.frame_Kernel := fun m g _ =>
  (θ_run (Cert.Kernel.defs (F := Bits)) _ _).mono
    (fun r h c => (h c (0 : Fin 2)).trans (Cert.Kernel.Xchg.finalA_x (F := Bits) m g c))
    (Cert.Kernel.Xchg.run_main (F := Bits) m g)

/-- The same of the idealized program. -/
theorem frame_ki : Cert.frame_KernelIdeal := fun m g _ =>
  (θ_run (Cert.KernelIdeal.defs (F := Ideal)) _ _).mono
    (fun r h c => (h c (0 : Fin 2)).trans (Cert.KernelIdeal.Xchg.finalA_x (F := Ideal) m g c))
    (Cert.KernelIdeal.Xchg.run_main (F := Ideal) m g)

/-- The idealization rewrote no operation: there is nothing to preserve. -/
theorem preserves : Cert.preserves_Kernel_KernelIdeal := trivial

/-- On the extended reals every device ends with its part of the whole matrix's column sums: its own block's column
    sums plus its partner's are the sums down whole columns, the two halves in either order. -/
theorem algebraic : Cert.algebraic_KernelIdeal_ReferenceIdeal := by
  intro m g m' g' _ hagree
  refine ⟨Cert.RowSum.refOut (m' (((0 : Dev Cert.ReferenceIdeal.nD).tc : Thread Cert.ReferenceIdeal.nD Cert.ReferenceIdeal.τ).loc Cert.ReferenceIdeal.main_arg0)), ?_,
    Cert.RowSum.ref_run m' g'⟩
  refine (θ_run (Cert.KernelIdeal.defs (F := Ideal)) _ _).mono (fun r h c => ⟨?_, ?_⟩) (Cert.KernelIdeal.Xchg.run_main (F := Ideal) m g)
  · exact ((h c (1 : Fin 2)).trans (Cert.KernelIdeal.Xchg.finalA_out_eq (F := Ideal) m g c)).trans (Cert.RowSum.out_block m m' hagree c)
  · exact (h c (0 : Fin 2)).trans (Cert.KernelIdeal.Xchg.finalA_x (F := Ideal) m g c)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RowSum.frame_ri, preserves, algebraic⟩

end Cert.Proof

end
